-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x320x16 : Shape := ⟨3, ![1, 320, 16]⟩
abbrev S16x320x16 : Shape := ⟨3, ![16, 320, 16]⟩
abbrev S16x320x1 : Shape := ⟨3, ![16, 320, 1]⟩
abbrev S8192x3 : Shape := ⟨2, ![8192, 3]⟩
abbrev S_ : Shape := ⟨0, ![]⟩

class Facts : Prop where
  bcast_S_S1x320x16 : S_.BroadcastsInDim S1x320x16 (![] : Fin 0 → Fin S1x320x16.rank)
  reducesTo_S1x320x16_S_d0_1_2 : S1x320x16.ReducesTo [0, 1, 2] S_
  h_S_ : 0 < S_.numel
  bcast_S_S16x320x16 : S_.BroadcastsInDim S16x320x16 (![] : Fin 0 → Fin S16x320x16.rank)
  reducesTo_S16x320x16_S_d0_1_2 : S16x320x16.ReducesTo [0, 1, 2] S_
  bcast_S_S16x320x1 : S_.BroadcastsInDim S16x320x1 (![] : Fin 0 → Fin S16x320x1.rank)
  reducesTo_S16x320x1_S_d0_1_2 : S16x320x1.ReducesTo [0, 1, 2] S_
  bcast_S_S8192x3 : S_.BroadcastsInDim S8192x3 (![] : Fin 0 → Fin S8192x3.rank)
  reducesTo_S8192x3_S_d0_1 : S8192x3.ReducesTo [0, 1] S_

variable [Facts]

def fn_part1 {F : FTy → Type} [FloatOps F] (main_v13 : IVec S_ 1) (main_v15 : IVec S8192x3 1) (main_c_5 : IVec S_ 1) : IVec S_ 1 :=
  let main_v16 : IVec S_ 1 := (fun x v => Host.reduce IntOp.andi x v reducesTo_S8192x3_S_d0_1 h_S_) main_v15 main_c_5
  let main_v17 : IVec S_ 1 := andi main_v13 main_v16
  main_v17

def fn {F : FTy → Type} [FloatOps F] (main_arg0 : FVec F S1x320x16 .f32) (main_arg1 : FVec F S16x320x16 .f32) (main_arg2 : FVec F S16x320x1 .f32) (main_arg3 : IVec S8192x3 32) : IVec S_ 1 :=
  let main_v0 : FVec F S1x320x16 .f32 := Host.absf main_arg0
  let main_cst : FVec F S_ .f32 := constant S_ .f32 0x7F800000#32
  let main_v1 : FVec F S1x320x16 .f32 := broadcastInDim S1x320x16 ![] bcast_S_S1x320x16 main_cst
  let main_v2 : IVec S1x320x16 1 := cmpf .olt main_v0 main_v1
  let main_c : IVec S_ 1 := constantI S_ 1 1#1
  let main_v3 : IVec S_ 1 := (fun x v => Host.reduce IntOp.andi x v reducesTo_S1x320x16_S_d0_1_2 h_S_) main_v2 main_c
  let main_v4 : FVec F S16x320x16 .f32 := Host.absf main_arg1
  let main_cst_0 : FVec F S_ .f32 := constant S_ .f32 0x7F800000#32
  let main_v5 : FVec F S16x320x16 .f32 := broadcastInDim S16x320x16 ![] bcast_S_S16x320x16 main_cst_0
  let main_v6 : IVec S16x320x16 1 := cmpf .olt main_v4 main_v5
  let main_c_1 : IVec S_ 1 := constantI S_ 1 1#1
  let main_v7 : IVec S_ 1 := (fun x v => Host.reduce IntOp.andi x v reducesTo_S16x320x16_S_d0_1_2 h_S_) main_v6 main_c_1
  let main_v8 : IVec S_ 1 := andi main_v3 main_v7
  let main_v9 : FVec F S16x320x1 .f32 := Host.absf main_arg2
  let main_cst_2 : FVec F S_ .f32 := constant S_ .f32 0x7F800000#32
  let main_v10 : FVec F S16x320x1 .f32 := broadcastInDim S16x320x1 ![] bcast_S_S16x320x1 main_cst_2
  let main_v11 : IVec S16x320x1 1 := cmpf .olt main_v9 main_v10
  let main_c_3 : IVec S_ 1 := constantI S_ 1 1#1
  let main_v12 : IVec S_ 1 := (fun x v => Host.reduce IntOp.andi x v reducesTo_S16x320x1_S_d0_1_2 h_S_) main_v11 main_c_3
  let main_v13 : IVec S_ 1 := andi main_v8 main_v12
  let main_c_4 : IVec S_ 32 := constantI S_ 32 0#32
  let main_v14 : IVec S8192x3 32 := broadcastInDim S8192x3 ![] bcast_S_S8192x3 main_c_4
  let main_v15 : IVec S8192x3 1 := cmpi .sge main_arg3 main_v14
  let main_c_5 : IVec S_ 1 := constantI S_ 1 1#1
  fn_part1 (F := F) main_v13 main_v15 main_c_5
-- ==== Kernel.lean ====
abbrev S1x320x16 : Shape := ⟨3, ![1, 320, 16]⟩
abbrev S16x320x16 : Shape := ⟨3, ![16, 320, 16]⟩
abbrev S16x320x1 : Shape := ⟨3, ![16, 320, 1]⟩
abbrev S8192x3 : Shape := ⟨2, ![8192, 3]⟩
abbrev S320x16 : Shape := ⟨2, ![320, 16]⟩
abbrev S320x16x16 : Shape := ⟨3, ![320, 16, 16]⟩
abbrev S320x256 : Shape := ⟨2, ![320, 256]⟩
abbrev S320x16x1 : Shape := ⟨3, ![320, 16, 1]⟩
abbrev S_ : Shape := ⟨0, ![]⟩
abbrev S64x128 : Shape := ⟨2, ![64, 128]⟩
abbrev S1024x3 : Shape := ⟨2, ![1024, 3]⟩
abbrev S8x128 : Shape := ⟨2, ![8, 128]⟩
abbrev S1024x1 : Shape := ⟨2, ![1024, 1]⟩
abbrev S1024x320 : Shape := ⟨2, ![1024, 320]⟩
abbrev S1024x16 : Shape := ⟨2, ![1024, 16]⟩
abbrev S1024x256 : Shape := ⟨2, ![1024, 256]⟩
abbrev S1024x16x16 : Shape := ⟨3, ![1024, 16, 16]⟩
abbrev S1024x16x1 : Shape := ⟨3, ![1024, 16, 1]⟩
abbrev S1024 : Shape := ⟨1, ![1024]⟩
abbrev S8192 : Shape := ⟨1, ![8192]⟩

abbrev nBuf : Space → Nat
  | .hbm => 22
  | .vmem => 7
  | .smem => 0
  | _ => 0

abbrev bufTy : (tb : Table) → Fin (tcTables nBuf tb) → BufTy
  | .hbm, ⟨0, _⟩ => ⟨S1x320x16, .f32⟩
  | .hbm, ⟨1, _⟩ => ⟨S16x320x16, .f32⟩
  | .hbm, ⟨2, _⟩ => ⟨S16x320x1, .f32⟩
  | .hbm, ⟨3, _⟩ => ⟨S8192x3, .i32⟩
  | .hbm, ⟨4, _⟩ => ⟨S320x16, .f32⟩
  | .hbm, ⟨5, _⟩ => ⟨S320x16, .bf16⟩
  | .hbm, ⟨6, _⟩ => ⟨S320x16x16, .f32⟩
  | .hbm, ⟨7, _⟩ => ⟨S320x256, .f32⟩
  | .hbm, ⟨8, _⟩ => ⟨S320x256, .bf16⟩
  | .hbm, ⟨9, _⟩ => ⟨S320x16x1, .f32⟩
  | .hbm, ⟨10, _⟩ => ⟨S320x16, .f32⟩
  | .hbm, ⟨11, _⟩ => ⟨S320x16, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S8192x3, .i32⟩
  | .hbm, ⟨16, _⟩ => ⟨S8192x3, .i32⟩
  | .hbm, ⟨17, _⟩ => ⟨S_, .i32⟩
  | .hbm, ⟨18, _⟩ => ⟨S8192x3, .i32⟩
  | .hbm, ⟨19, _⟩ => ⟨S8192x3, .i32⟩
  | .hbm, ⟨20, _⟩ => ⟨S64x128, .f32⟩
  | .hbm, ⟨21, _⟩ => ⟨S8192, .f32⟩
  | .local _ .vmem, ⟨0, _⟩ => ⟨S320x16, .bf16⟩
  | .local _ .vmem, ⟨1, _⟩ => ⟨S320x256, .bf16⟩
  | .local _ .vmem, ⟨2, _⟩ => ⟨S320x16, .bf16⟩
  | .local _ .vmem, ⟨3, _⟩ => ⟨S1024x3, .i32⟩
  | .local _ .vmem, ⟨4, _⟩ => ⟨S1024x3, .i32⟩
  | .local _ .vmem, ⟨5, _⟩ => ⟨S8x128, .f32⟩
  | .local _ .vmem, ⟨6, _⟩ => ⟨S8x128, .f32⟩
  | _, _ => ⟨S1x320x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x320x16_S320x16 : S1x320x16.ShapeCasts S320x16
  bitsLt_bf16_f32 : FTy.bits .bf16 < FTy.bits .f32
  transposes_S16x320x16_S320x16x16_1_0_2 : S16x320x16.Transposes [1, 0, 2] S320x16x16
  shapeCasts_S320x16x16_S320x256 : S320x16x16.ShapeCasts S320x256
  transposes_S16x320x1_S320x16x1_1_0_2 : S16x320x1.Transposes [1, 0, 2] S320x16x1
  shapeCasts_S320x16x1_S320x16 : S320x16x1.ShapeCasts S320x16
  bcast_S_S8192x3 : S_.BroadcastsInDim S8192x3 (![] : Fin 0 → Fin S8192x3.rank)
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  iota_S1024x320_d1_w32 : S1024x320.Iotas .tc 32 [1]
  broadcasts_S1024x1_S1024x320 : S1024x1.Broadcasts S1024x320
  natLt_1_32 : 1 < 32
  inb_S320x16_S320x16_0_0 : ∀ a, (![0, 0] : Fin 2 → Nat) a + S320x16.size a ≤ S320x16.size a
  h_S320x16 : 0 < S320x16.numel
  shapeCasts_S320x16_S320x16 : S320x16.ShapeCasts S320x16
  inb_S320x256_S320x256_0_0 : ∀ a, (![0, 0] : Fin 2 → Nat) a + S320x256.size a ≤ S320x256.size a
  h_S320x256 : 0 < S320x256.numel
  shapeCasts_S320x256_S320x256 : S320x256.ShapeCasts S320x256
  shapeCasts_S1024x256_S1024x16x16 : S1024x256.ShapeCasts S1024x16x16
  shapeCasts_S1024x16_S1024x16x1 : S1024x16.ShapeCasts S1024x16x1
  broadcasts_S1024x16x1_S1024x16x16 : S1024x16x1.Broadcasts S1024x16x16
  reduces_S1024x16x16_S1024x16 : S1024x16x16.Reduces [1] S1024x16
  reduces_S1024x16_S1024 : S1024x16.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S64x128_S8192 : S64x128.ShapeCasts S8192
  dot_S1024x320_S320x16_S1024x16_1_0_0_1_n_n_wf : DotDims.WF S1024x320 S320x16 S1024x16 [1] [0] [0] [1] [] []
  dot_S1024x320_S320x256_S1024x256_1_0_0_1_n_n_wf : DotDims.WF S1024x320 S320x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S320x16.size a ≤ S320x16.size a
  hwx0_0 : ∀ i : grid0.Coords, EltTy.bits .bf16 = 32 ∨ (Rect.block (s := S320x16) S320x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x256.size a ≤ S320x256.size a
  hwx0_1 : ∀ i : grid0.Coords, EltTy.bits .bf16 = 32 ∨ (Rect.block (s := S320x256) S320x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x16.size a ≤ S320x16.size a
  hwx0_2 : ∀ i : grid0.Coords, EltTy.bits .bf16 = 32 ∨ (Rect.block (s := S320x16) S320x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S8192x3.size a
  hwx0_3 : ∀ i : grid0.Coords, EltTy.bits .i32 = 32 ∨ (Rect.block (s := S8192x3) S1024x3.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)

variable [Facts₀]

def dot_S1024x320_S320x16_S1024x16_1_0_0_1_n_n : DotDims S1024x320 S320x16 S1024x16 where
  lhsContracting := [1]
  rhsContracting := [0]
  lhsNonContracting := [0]
  rhsNonContracting := [1]
  lhsBatch := []
  rhsBatch := []
  wf := dot_S1024x320_S320x16_S1024x16_1_0_0_1_n_n_wf
def dot_S1024x320_S320x256_S1024x256_1_0_0_1_n_n : DotDims S1024x320 S320x256 S1024x256 where
  lhsContracting := [1]
  rhsContracting := [0]
  lhsNonContracting := [0]
  rhsNonContracting := [1]
  lhsBatch := []
  rhsBatch := []
  wf := dot_S1024x320_S320x256_S1024x256_1_0_0_1_n_n_wf

abbrev win0_0 : Pipeline.Window sig grid0 :=
  Pipeline.Window.ofSpec (Memref.whole main_v1) S320x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S320x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S320x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x320x16 : Shape := ⟨3, ![1, 320, 16]⟩
abbrev S16x320x16 : Shape := ⟨3, ![16, 320, 16]⟩
abbrev S16x320x1 : Shape := ⟨3, ![16, 320, 1]⟩
abbrev S8192x3 : Shape := ⟨2, ![8192, 3]⟩
abbrev S320x16 : Shape := ⟨2, ![320, 16]⟩
abbrev S16x5120 : Shape := ⟨2, ![16, 5120]⟩
abbrev S320x5120 : Shape := ⟨2, ![320, 5120]⟩
abbrev S102400x16 : Shape := ⟨2, ![102400, 16]⟩
abbrev S16x320 : Shape := ⟨2, ![16, 320]⟩
abbrev S102400x320 : Shape := ⟨2, ![102400, 320]⟩
abbrev S320x320x320 : Shape := ⟨3, ![320, 320, 320]⟩
abbrev S8192x1 : Shape := ⟨2, ![8192, 1]⟩
abbrev S8192 : Shape := ⟨1, ![8192]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x320x16, .f32⟩
  | .hbm, ⟨1, _⟩ => ⟨S16x320x16, .f32⟩
  | .hbm, ⟨2, _⟩ => ⟨S16x320x1, .f32⟩
  | .hbm, ⟨3, _⟩ => ⟨S8192x3, .i32⟩
  | .hbm, ⟨4, _⟩ => ⟨S320x16, .f32⟩
  | .hbm, ⟨5, _⟩ => ⟨S16x5120, .f32⟩
  | .hbm, ⟨6, _⟩ => ⟨S320x5120, .f32⟩
  | .hbm, ⟨7, _⟩ => ⟨S102400x16, .f32⟩
  | .hbm, ⟨8, _⟩ => ⟨S16x320, .f32⟩
  | .hbm, ⟨9, _⟩ => ⟨S102400x320, .f32⟩
  | .hbm, ⟨10, _⟩ => ⟨S320x320x320, .f32⟩
  | .hbm, ⟨11, _⟩ => ⟨S8192x1, .i32⟩
  | .hbm, ⟨12, _⟩ => ⟨S8192, .i32⟩
  | .hbm, ⟨13, _⟩ => ⟨S8192x1, .i32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x1, .i32⟩
  | .hbm, ⟨40, _⟩ => ⟨S8192x1, .i32⟩
  | .hbm, ⟨41, _⟩ => ⟨S8192x3, .i32⟩
  | .hbm, ⟨42, _⟩ => ⟨S8192, .f32⟩
  | _, _ => ⟨S1x320x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S1x320x16_S320x16 : S1x320x16.ShapeCasts S320x16
  shapeCasts_S16x320x16_S16x5120 : S16x320x16.ShapeCasts S16x5120
  shapeCasts_S320x5120_S102400x16 : S320x5120.ShapeCasts S102400x16
  shapeCasts_S16x320x1_S16x320 : S16x320x1.ShapeCasts S16x320
  shapeCasts_S102400x320_S320x320x320 : S102400x320.ShapeCasts S320x320x320
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x3_d1 : Shape.Concatenates [S8192x1, S8192x1, S8192x1] S8192x3 1
  dot_S320x16_S16x5120_S320x5120_1_0_0_1_n_n_wf : DotDims.WF S320x16 S16x5120 S320x5120 [1] [0] [0] [1] [] []
  dot_S102400x16_S16x320_S102400x320_1_0_0_1_n_n_wf : DotDims.WF S102400x16 S16x320 S102400x320 [1] [0] [0] [1] [] []
  gather_S320x320x320_S8192x3_S8192_n_012_n_n_012_1_111_wf : GatherDims.WF S320x320x320 S8192x3 S8192 [] [0, 1, 2] [] [0, 1, 2] [] 1 ![1, 1, 1]

variable [Facts₀]

def dot_S320x16_S16x5120_S320x5120_1_0_0_1_n_n : DotDims S320x16 S16x5120 S320x5120 where
  lhsContracting := [1]
  rhsContracting := [0]
  lhsNonContracting := [0]
  rhsNonContracting := [1]
  lhsBatch := []
  rhsBatch := []
  wf := dot_S320x16_S16x5120_S320x5120_1_0_0_1_n_n_wf
def dot_S102400x16_S16x320_S102400x320_1_0_0_1_n_n : DotDims S102400x16 S16x320 S102400x320 where
  lhsContracting := [1]
  rhsContracting := [0]
  lhsNonContracting := [0]
  rhsNonContracting := [1]
  lhsBatch := []
  rhsBatch := []
  wf := dot_S102400x16_S16x320_S102400x320_1_0_0_1_n_n_wf
def gather_S320x320x320_S8192x3_S8192_n_012_n_n_012_1_111 : GatherDims S320x320x320 S8192x3 S8192 where
  offsetDims := []
  collapsedSliceDims := [0, 1, 2]
  operandBatchingDims := []
  startIndicesBatchingDims := []
  startIndexMap := [0, 1, 2]
  indexVectorDim := 1
  sliceSizes := ![1, 1, 1]
  wf := gather_S320x320x320_S8192x3_S8192_n_012_n_n_012_1_111_wf

class Facts : Prop extends Facts₀ where

variable [Facts]
-- ==== Proof.Spec.lean ====
/-
  What both programs compute, as one function of the argument arrays.

  The three cores g0 : [1, 320, 16], g1 : [16, 320, 16], g2 : [16, 320, 1] represent the 320 × 320 × 320 tensor whose
  entry (r0, r1, r2) is  ∑ b, (∑ a, g0[0, r0, a] · g1[a, r1, b]) · g2[b, r2, 0]  — a row of g0 times a 16 × 16 slice of
  g1 times a column of g2, summed in this nesting. Result element n is that entry at the three rows the index words
  idxs[n, 0], idxs[n, 1], idxs[n, 2] select, a word selecting the row min(max(word, 0), 319) (the word read signed).

  Also here, because they speak of words only: an index word that is not negative is left alone by "add 320 if negative";
  clamping a word into [0, 319] gives the selected row's number; and a sum over the 320 rows of a table weighted by
  "1 where the row's number is the word, else 0" is the table's entry at that row (0 · x = 0 and 1 · x = x on every
  extended real, so no finiteness is needed).
-/
import Idealize.ShloMosaic.PureOps.Ideal
import Idealize.ShloMosaic.Lib.ValueIdx

noncomputable section

open scoped BigOperators

namespace Cert.TT

open Idealize.ShloMosaic Idealize.ShloMosaic.ValueIdx

/-! ## The specification -/

/-- The row of a 320-row table the index word `v` selects: `v` read signed and brought into [0, 319]. -/
def row (v : BitVec 32) : Fin 320 := ⟨min v.toInt.toNat 319, by omega⟩

/-- Entry (r0, r1, r2) of the tensor the three cores represent. -/
def entry (g0 : (⟨3, ![1, 320, 16]⟩ : Shape).Idx → EReal) (g1 : (⟨3, ![16, 320, 16]⟩ : Shape).Idx → EReal)
    (g2 : (⟨3, ![16, 320, 1]⟩ : Shape).Idx → EReal) (r0 r1 r2 : Fin 320) : EReal :=
  ∑ b : Fin 16, (∑ a : Fin 16, g0 (ix3 (0 : Fin 1) r0 a) * g1 (ix3 a r1 b)) * g2 (ix3 b r2 (0 : Fin 1))

/-- Column a · 16 + b of a 256-column table: where entry (a, b) of a 16 × 16 slice lies once the slice is laid out as one row. -/
def col (a b : Fin 16) : Fin 256 := ⟨a.val * 16 + b.val, by have := a.isLt; have := b.isLt; omega⟩

/-- The result array: element n is the entry at the rows its three index words select. -/
def G (g0 : (⟨3, ![1, 320, 16]⟩ : Shape).Idx → EReal) (g1 : (⟨3, ![16, 320, 16]⟩ : Shape).Idx → EReal)
    (g2 : (⟨3, ![16, 320, 1]⟩ : Shape).Idx → EReal) (idxs : (⟨2, ![8192, 3]⟩ : Shape).Idx → BitVec 32) :
    (⟨1, ![8192]⟩ : Shape).Idx → EReal :=
  fun n => entry g0 g1 g2 (row (idxs (ix2 (n 0) (0 : Fin 3)))) (row (idxs (ix2 (n 0) (1 : Fin 3))))
    (row (idxs (ix2 (n 0) (2 : Fin 3))))

/-! ## Index words -/

/-- A 32-bit word read signed: itself below 2^31, itself minus 2^32 from there on. -/
theorem toInt_cases (v : BitVec 32) :
    (v.toNat < 2147483648 ∧ v.toInt = (v.toNat : Int)) ∨ (2147483648 ≤ v.toNat ∧ v.toInt = (v.toNat : Int) - 4294967296) := by
  have h := v.isLt
  rw [BitVec.toInt_eq_toNat_cond]
  split <;> omega

/-- The signed comparison "0 ≤ v" as the precondition prints it. -/
theorem nonneg_of_sge {v : BitVec 32} (h : IntOp.cmpi .sge v 0#32 = 1#1) : 0 ≤ v.toInt := by
  have h' : BitVec.ofBool ((0#32 : BitVec 32).sle v) = 1#1 := h
  by_contra hn
  have : (0#32 : BitVec 32).sle v = false := by
    simp only [BitVec.sle, BitVec.toInt_zero, decide_eq_false_iff_not]; exact hn
  rw [this] at h'
  exact absurd h' (by decide)

/-- "Add 320 if negative" leaves a word that is not negative alone. -/
theorem wrap_of_nonneg {v : BitVec 32} (h : 0 ≤ v.toInt) :
    Scalar.select (IntOp.cmpi .slt v 0#32) (IntOp.addi v 320#32) v = v := by
  have : IntOp.cmpi .slt v 0#32 = 0#1 := by
    unfold IntOp.cmpi
    have : v.slt 0#32 = false := by
      simp only [BitVec.slt, BitVec.toInt_zero, decide_eq_false_iff_not]; omega
    rw [this]; rfl
  rw [this]; exact select_zero _ _

/-- The signed maximum with 0, read signed. -/
theorem maxsi_zero_toInt (v : BitVec 32) : (IntOp.maxsi 0#32 v).toInt = max v.toInt 0 := by
  have e : IntOp.maxsi 0#32 v = if v.toInt < 0 then 0#32 else v := by
    unfold IntOp.maxsi; simp [BitVec.slt]
  rw [e]; split
  · rw [BitVec.toInt_zero]; omega
  · omega

/-- The signed minimum with 319, read signed. -/
theorem minsi_319_toInt (w : BitVec 32) : (IntOp.minsi 319#32 w).toInt = min 319 w.toInt := by
  have h319 : (319#32 : BitVec 32).toInt = 319 := by decide
  have e : IntOp.minsi 319#32 w = if 319 < w.toInt then 319#32 else w := by
    unfold IntOp.minsi; simp [BitVec.slt, h319]
  rw [e]; split
  · rw [h319]; omega
  · omega

/-- Clamping a word into [0, 319] (maximum with 0, then minimum with 319, both signed) gives the number of the row it
    selects. -/
theorem clip_toNat (v : BitVec 32) : (IntOp.minsi 319#32 (IntOp.maxsi 0#32 v)).toNat = (row v).val := by
  have hi : (IntOp.minsi 319#32 (IntOp.maxsi 0#32 v)).toInt = min 319 (max v.toInt 0) := by
    rw [minsi_319_toInt, maxsi_zero_toInt]
  show _ = min v.toInt.toNat 319
  rcases toInt_cases (IntOp.minsi 319#32 (IntOp.maxsi 0#32 v)) with ⟨_, hc⟩ | ⟨_, hc⟩ <;> omega

/-- So the clamped word is the numeral of that row. -/
theorem clip_eq_ofNat (v : BitVec 32) : IntOp.minsi 319#32 (IntOp.maxsi 0#32 v) = BitVec.ofNat 32 (row v).val := by
  apply BitVec.eq_of_toNat_eq
  rw [clip_toNat, BitVec.toNat_ofNat]
  have := (row v).isLt
  omega

/-! ## Selecting a row by a sum -/

/-- The weight the comparison "row number = index word" gives row `k`: the bit widened to a word and read as a number. -/
def hot (c : BitVec 32) (k : Nat) : EReal :=
  ((((IntOp.cmpi .eq (BitVec.ofNat 32 k) c).setWidth 32).toInt : ℝ) : EReal)

theorem hot_self (r : Fin 320) : hot (BitVec.ofNat 32 r.val) r.val = 1 := by
  unfold hot IntOp.cmpi
  simp

theorem hot_ne (r k : Fin 320) (h : k ≠ r) : hot (BitVec.ofNat 32 r.val) k.val = 0 := by
  unfold hot IntOp.cmpi
  have hne : (BitVec.ofNat 32 k.val == BitVec.ofNat 32 r.val) = false := by
    rw [beq_eq_false_iff_ne]
    intro he
    have := congrArg BitVec.toNat he
    rw [BitVec.toNat_ofNat, BitVec.toNat_ofNat] at this
    have hk := k.isLt; have hr := r.isLt
    exact h (Fin.ext (by omega))
  rw [hne]
  simp

/-- A sum over a table's 320 rows weighted by "1 at the word's row, 0 elsewhere" is the table at that row. -/
theorem hot_sum (r : Fin 320) (T : Fin 320 → EReal) : ∑ k : Fin 320, hot (BitVec.ofNat 32 r.val) k.val * T k = T r := by
  rw [Finset.sum_eq_single r]
  · rw [hot_self, one_mul]
  · intro k _ hk; rw [hot_ne r k hk, zero_mul]
  · intro h; exact absurd (Finset.mem_univ r) h

end Cert.TT

end
-- ==== Proof.Payload.lean ====
/-
  The kernel body's stored value at one element. Element (p, q) of the 8 × 128 output block belongs to row
  n = 128 p + q of the 1024-row index block; its three index words, compared with the row numbers 0 … 319, weight the
  three tables' rows by 1 at the word's row and 0 elsewhere, so each product with a table selects one row; the rest is
  the nested sum  ∑ b, (∑ a, t0[r0, a] · t1[r1, 16 a + b]) · t2[r2, b].
-/
import proofs.«410963_j395136991290_2_alg».proof.Proof.Gen.KernelIdeal.Skeleton
import proofs.«410963_j395136991290_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The weights -/

/-- Column c of the index block, spread over the 320 row numbers, reads the index word of row n at every k. -/
theorem column_apply (x : IVec S1024x3 32) (o : Nat) (c : Fin 3) (hc : c.val = o)
    (hsc : S1024x3.ShapeCasts S1024x3) (hs : S1024x3.Slices ![0, o] S1024x1) (hb : S1024x1.Broadcasts S1024x320)
    (n : Fin 1024) (k : Fin 320) :
    broadcastTo S1024x320 (extractStridedSlice S1024x1 ![0, o] (shapeCast S1024x3 x hsc) hs) hb (ix2 n k)
      = x (ix2 n c) := by
  rw [shapeCast_self]
  refine (broadcastTo_apply _ hb (ix2 n k) (ix2 n (0 : Fin 1)) (fun ax => ?_)).trans ?_
  · match ax with
    | ⟨0, _⟩ => rfl
    | ⟨1, _⟩ => rfl
  · exact slice2_axis1_apply o x hs n (0 : Fin 1) c (by rw [hc]; rfl)

/-- The weight "row number k is the word", as the body computes it, is the specification's. -/
theorem onehot_apply (B : IVec S1024x320 32) (hi : S1024x320.Iotas .tc 32 [1]) (h1 : 1 < 32)
    (hbf : FTy.bits .bf16 < FTy.bits .f32) (n : Fin 1024) (k : Fin 320) :
    (truncf .bf16 (sitofp (F := Ideal) .f32 (extui 32 (cmpi .eq (iota .tc S1024x320 32 [1] hi) B) h1)) hbf : FVec Ideal S1024x320 .bf16) (ix2 n k)
      = Cert.TT.hot (B (ix2 n k)) k.val := by
  show ((((IntOp.cmpi .eq (iota .tc S1024x320 32 [1] hi (ix2 n k)) (B (ix2 n k))).setWidth 32).toInt : ℝ) : EReal) = _
  rw [iota_single_apply]
  rfl

/-! ## A product with a table, read at an element -/

theorem lhs_narrow_0 (i : S1024x16.Idx) (q : dot_S1024x320_S320x16_S1024x16_1_0_0_1_n_n.contr.Idx) :
    (dot_S1024x320_S320x16_S1024x16_1_0_0_1_n_n.lhsIdx i q 0).val = (i 0).val := by
  unfold DotDims.lhsIdx
  rw [dif_neg (show ¬(0 : Fin S1024x320.rank) ∈ dot_S1024x320_S320x16_S1024x16_1_0_0_1_n_n.lhsBatch by decide), dif_pos (show (0 : Fin S1024x320.rank) ∈ dot_S1024x320_S320x16_S1024x16_1_0_0_1_n_n.lhsNonContracting by decide)]
  rfl
theorem lhs_narrow_1 (i : S1024x16.Idx) (q : dot_S1024x320_S320x16_S1024x16_1_0_0_1_n_n.contr.Idx) :
    (dot_S1024x320_S320x16_S1024x16_1_0_0_1_n_n.lhsIdx i q 1).val = (q ⟨0, by decide⟩).val :=
  dot_S1024x320_S320x16_S1024x16_1_0_0_1_n_n.lhsIdx_val_of_single rfl i q
theorem rhs_narrow_0 (i : S1024x16.Idx) (q : dot_S1024x320_S320x16_S1024x16_1_0_0_1_n_n.contr.Idx) :
    (dot_S1024x320_S320x16_S1024x16_1_0_0_1_n_n.rhsIdx i q 0).val = (q ⟨0, by decide⟩).val :=
  dot_S1024x320_S320x16_S1024x16_1_0_0_1_n_n.rhsIdx_val_of_single rfl i q
theorem rhs_narrow_1 (i : S1024x16.Idx) (q : dot_S1024x320_S320x16_S1024x16_1_0_0_1_n_n.contr.Idx) :
    (dot_S1024x320_S320x16_S1024x16_1_0_0_1_n_n.rhsIdx i q 1).val = (i 1).val := by
  unfold DotDims.rhsIdx
  rw [dif_neg (show ¬(1 : Fin S320x16.rank) ∈ dot_S1024x320_S320x16_S1024x16_1_0_0_1_n_n.rhsBatch by decide), dif_pos (show (1 : Fin S320x16.rank) ∈ dot_S1024x320_S320x16_S1024x16_1_0_0_1_n_n.rhsNonContracting by decide)]
  rfl

/-- The product of a 1024 × 320 weight block with a 320-row table, added into zeros: at (n, j) the sum over the 320 rows
    of weight times table entry. -/
theorem matmul_narrow_apply (L : FVec Ideal S1024x320 .bf16) (R : FVec Ideal S320x16 .bf16) (n : Fin 1024) (j : Fin 16) :
    matmul dot_S1024x320_S320x16_S1024x16_1_0_0_1_n_n none L R (constant (F := Ideal) S1024x16 .f32 0x00000000#32) (ix2 n j)
      = ∑ k : Fin 320, L (ix2 n k) * R (ix2 k j) := by
  refine (Ideal.matmul_constant_zero_apply dot_S1024x320_S320x16_S1024x16_1_0_0_1_n_n none L R (ix2 n j)).trans ?_
  rw [← Equiv.sum_comp (ValueIdx.contrEquiv1 dot_S1024x320_S320x16_S1024x16_1_0_0_1_n_n 320 rfl rfl).symm]
  refine Finset.sum_congr rfl fun k _ => ?_
  have hk := ValueIdx.contrEquiv1_symm_val dot_S1024x320_S320x16_S1024x16_1_0_0_1_n_n 320 rfl rfl k
  have el : dot_S1024x320_S320x16_S1024x16_1_0_0_1_n_n.lhsIdx (ix2 n j) ((ValueIdx.contrEquiv1 dot_S1024x320_S320x16_S1024x16_1_0_0_1_n_n 320 rfl rfl).symm k) = ix2 n k := funext fun a => Fin.ext (by
    match a with
    | ⟨0, _⟩ => exact lhs_narrow_0 _ _
    | ⟨1, _⟩ => exact (lhs_narrow_1 _ _).trans hk)
  have er : dot_S1024x320_S320x16_S1024x16_1_0_0_1_n_n.rhsIdx (ix2 n j) ((ValueIdx.contrEquiv1 dot_S1024x320_S320x16_S1024x16_1_0_0_1_n_n 320 rfl rfl).symm k) = ix2 k j := funext fun a => Fin.ext (by
    match a with
    | ⟨0, _⟩ => exact (rhs_narrow_0 _ _).trans hk
    | ⟨1, _⟩ => exact rhs_narrow_1 _ _)
  rw [el, er]

theorem lhs_wide_0 (i : S1024x256.Idx) (q : dot_S1024x320_S320x256_S1024x256_1_0_0_1_n_n.contr.Idx) :
    (dot_S1024x320_S320x256_S1024x256_1_0_0_1_n_n.lhsIdx i q 0).val = (i 0).val := by
  unfold DotDims.lhsIdx
  rw [dif_neg (show ¬(0 : Fin S1024x320.rank) ∈ dot_S1024x320_S320x256_S1024x256_1_0_0_1_n_n.lhsBatch by decide), dif_pos (show (0 : Fin S1024x320.rank) ∈ dot_S1024x320_S320x256_S1024x256_1_0_0_1_n_n.lhsNonContracting by decide)]
  rfl
theorem lhs_wide_1 (i : S1024x256.Idx) (q : dot_S1024x320_S320x256_S1024x256_1_0_0_1_n_n.contr.Idx) :
    (dot_S1024x320_S320x256_S1024x256_1_0_0_1_n_n.lhsIdx i q 1).val = (q ⟨0, by decide⟩).val :=
  dot_S1024x320_S320x256_S1024x256_1_0_0_1_n_n.lhsIdx_val_of_single rfl i q
theorem rhs_wide_0 (i : S1024x256.Idx) (q : dot_S1024x320_S320x256_S1024x256_1_0_0_1_n_n.contr.Idx) :
    (dot_S1024x320_S320x256_S1024x256_1_0_0_1_n_n.rhsIdx i q 0).val = (q ⟨0, by decide⟩).val :=
  dot_S1024x320_S320x256_S1024x256_1_0_0_1_n_n.rhsIdx_val_of_single rfl i q
theorem rhs_wide_1 (i : S1024x256.Idx) (q : dot_S1024x320_S320x256_S1024x256_1_0_0_1_n_n.contr.Idx) :
    (dot_S1024x320_S320x256_S1024x256_1_0_0_1_n_n.rhsIdx i q 1).val = (i 1).val := by
  unfold DotDims.rhsIdx
  rw [dif_neg (show ¬(1 : Fin S320x256.rank) ∈ dot_S1024x320_S320x256_S1024x256_1_0_0_1_n_n.rhsBatch by decide), dif_pos (show (1 : Fin S320x256.rank) ∈ dot_S1024x320_S320x256_S1024x256_1_0_0_1_n_n.rhsNonContracting by decide)]
  rfl

/-- The product of a 1024 × 320 weight block with a 320-row table, added into zeros: at (n, j) the sum over the 320 rows
    of weight times table entry. -/
theorem matmul_wide_apply (L : FVec Ideal S1024x320 .bf16) (R : FVec Ideal S320x256 .bf16) (n : Fin 1024) (j : Fin 256) :
    matmul dot_S1024x320_S320x256_S1024x256_1_0_0_1_n_n none L R (constant (F := Ideal) S1024x256 .f32 0x00000000#32) (ix2 n j)
      = ∑ k : Fin 320, L (ix2 n k) * R (ix2 k j) := by
  refine (Ideal.matmul_constant_zero_apply dot_S1024x320_S320x256_S1024x256_1_0_0_1_n_n none L R (ix2 n j)).trans ?_
  rw [← Equiv.sum_comp (ValueIdx.contrEquiv1 dot_S1024x320_S320x256_S1024x256_1_0_0_1_n_n 320 rfl rfl).symm]
  refine Finset.sum_congr rfl fun k _ => ?_
  have hk := ValueIdx.contrEquiv1_symm_val dot_S1024x320_S320x256_S1024x256_1_0_0_1_n_n 320 rfl rfl k
  have el : dot_S1024x320_S320x256_S1024x256_1_0_0_1_n_n.lhsIdx (ix2 n j) ((ValueIdx.contrEquiv1 dot_S1024x320_S320x256_S1024x256_1_0_0_1_n_n 320 rfl rfl).symm k) = ix2 n k := funext fun a => Fin.ext (by
    match a with
    | ⟨0, _⟩ => exact lhs_wide_0 _ _
    | ⟨1, _⟩ => exact (lhs_wide_1 _ _).trans hk)
  have er : dot_S1024x320_S320x256_S1024x256_1_0_0_1_n_n.rhsIdx (ix2 n j) ((ValueIdx.contrEquiv1 dot_S1024x320_S320x256_S1024x256_1_0_0_1_n_n 320 rfl rfl).symm k) = ix2 k j := funext fun a => Fin.ext (by
    match a with
    | ⟨0, _⟩ => exact (rhs_wide_0 _ _).trans hk
    | ⟨1, _⟩ => exact rhs_wide_1 _ _)
  rw [el, er]

/-! ## Selecting a table's row -/

/-- The weights of row n, computed from column c of the index block, when that word is the numeral of row r. -/
theorem hot_apply (v0 : IVec S1024x3 32) (o : Nat) (c : Fin 3) (hc : c.val = o) (hs : S1024x3.Slices ![0, o] S1024x1)
    (n : Fin 1024) (r : Fin 320) (hr : v0 (ix2 n c) = BitVec.ofNat 32 r.val) (k : Fin 320) :
    (truncf .bf16 (sitofp (F := Ideal) .f32 (extui 32 (cmpi .eq (iota .tc S1024x320 32 [1] iota_S1024x320_d1_w32)
        (broadcastTo S1024x320 (extractStridedSlice S1024x1 ![0, o] (shapeCast S1024x3 v0 shapeCasts_S1024x3_S1024x3) hs)
          broadcasts_S1024x1_S1024x320)) natLt_1_32)) bitsLt_bf16_f32 : FVec Ideal S1024x320 .bf16) (ix2 n k)
      = Cert.TT.hot (BitVec.ofNat 32 r.val) k.val :=
  (onehot_apply _ _ _ _ n k).trans (by rw [column_apply v0 o c hc _ hs _ n k, hr])

/-- With the weights of row n those of the word naming row r, the product selects the table's row r. -/
theorem row_narrow (L : FVec Ideal S1024x320 .bf16) (T : FVec Ideal S320x16 .bf16) (hsc : S320x16.ShapeCasts S320x16) (n : Fin 1024)
    (r : Fin 320) (hL : ∀ k : Fin 320, L (ix2 n k) = Cert.TT.hot (BitVec.ofNat 32 r.val) k.val) (j : Fin 16) :
    matmul dot_S1024x320_S320x16_S1024x16_1_0_0_1_n_n none L (shapeCast S320x16 T hsc) (constant (F := Ideal) S1024x16 .f32 0x00000000#32) (ix2 n j)
      = T (ix2 r j) := by
  rw [shapeCast_self]
  refine (matmul_narrow_apply L T n j).trans ?_
  refine (Finset.sum_congr rfl fun k _ => by rw [hL k]).trans ?_
  exact Cert.TT.hot_sum r (fun k => T (ix2 k j))

/-- With the weights of row n those of the word naming row r, the product selects the table's row r. -/
theorem row_wide (L : FVec Ideal S1024x320 .bf16) (T : FVec Ideal S320x256 .bf16) (hsc : S320x256.ShapeCasts S320x256) (n : Fin 1024)
    (r : Fin 320) (hL : ∀ k : Fin 320, L (ix2 n k) = Cert.TT.hot (BitVec.ofNat 32 r.val) k.val) (j : Fin 256) :
    matmul dot_S1024x320_S320x256_S1024x256_1_0_0_1_n_n none L (shapeCast S320x256 T hsc) (constant (F := Ideal) S1024x256 .f32 0x00000000#32) (ix2 n j)
      = T (ix2 r j) := by
  rw [shapeCast_self]
  refine (matmul_wide_apply L T n j).trans ?_
  refine (Finset.sum_congr rfl fun k _ => by rw [hL k]).trans ?_
  exact Cert.TT.hot_sum r (fun k => T (ix2 k j))

/-! ## Layout and sums -/

/-- The 1024 results laid out 8 × 128: element (p, q) is result 128 p + q. -/
theorem fold_apply {α : Type} (X : S1024.Idx → α) (hsc : S1024.ShapeCasts S8x128) (p : Fin 8) (q : Fin 128) (n : Fin 1024)
    (hn : n.val = p.val * 128 + q.val) : shapeCast S8x128 X hsc (ix2 p q) = X (ix1 n) := by
  refine shapeCast_apply X hsc (ix2 p q) (ix1 n) ?_
  rw [Shape.rowMajor_val_one, Shape.rowMajor_val_two]
  exact hn

/-- A 256-column row viewed as 16 × 16: entry (a, b) is column 16 a + b. -/
theorem unflatten_apply {α : Type} (X : S1024x256.Idx → α) (hsc : S1024x256.ShapeCasts S1024x16x16) (n : Fin 1024) (a b : Fin 16) :
    shapeCast S1024x16x16 X hsc (ix3 n a b) = X (ix2 n (Cert.TT.col a b)) := by
  refine shapeCast_apply X hsc (ix3 n a b) (ix2 n (Cert.TT.col a b)) ?_
  rw [Shape.rowMajor_val_two, Shape.rowMajor_val_three]
  show n.val * 256 + (a.val * 16 + b.val) = (n.val * 16 + a.val) * 16 + b.val
  omega

/-- A 16-entry row given a trailing unit axis and spread along it: entry (a, b) is entry a. -/
theorem spread_apply {α : Type} (X : S1024x16.Idx → α) (hsc : S1024x16.ShapeCasts S1024x16x1)
    (hb : S1024x16x1.Broadcasts S1024x16x16) (n : Fin 1024) (a b : Fin 16) :
    broadcastTo S1024x16x16 (shapeCast S1024x16x1 X hsc) hb (ix3 n a b) = X (ix2 n a) := by
  refine (broadcastTo_apply _ hb (ix3 n a b) (ix3 n a (0 : Fin 1)) (fun ax => ?_)).trans ?_
  · match ax with
    | ⟨0, _⟩ => rfl
    | ⟨1, _⟩ => rfl
    | ⟨2, _⟩ => rfl
  · refine shapeCast_apply X hsc (ix3 n a (0 : Fin 1)) (ix2 n a) ?_
    rw [Shape.rowMajor_val_two, Shape.rowMajor_val_three]
    show n.val * 16 + a.val = (n.val * 16 + a.val) * 1 + 0
    omega

/-- The sum over the middle axis of a 1024 × 16 × 16 block. -/
theorem sum_mid_apply (X : FVec Ideal S1024x16x16 .f32) (h : S1024x16x16.Reduces [1] S1024x16) (hφ : FKind.Formats .f32)
    (hacc : (0x00000000#32 : BitVec FTy.f32.bits) = FKind.add.neutral .f32 hφ) (n : Fin 1024) (b : Fin 16) :
    multiReduction (F := Ideal) .add [1] S1024x16 X 0x00000000#32 h hφ hacc (ix2 n b) = ∑ a : Fin 16, X (ix3 n a b) := by
  refine (Ideal.multiReduction_add_single X _ h hφ hacc (ix2 n b)).trans ?_
  refine Finset.sum_congr rfl fun a _ => congrArg X (funext fun ax => ?_)
  match ax with
  | ⟨0, _⟩ => rfl
  | ⟨1, _⟩ => rfl
  | ⟨2, _⟩ => rfl

/-- The sum over the rows' 16 entries. -/
theorem sum_last_apply (X : FVec Ideal S1024x16 .f32) (h : S1024x16.Reduces [1] S1024) (hφ : FKind.Formats .f32)
    (hacc : (0x00000000#32 : BitVec FTy.f32.bits) = FKind.add.neutral .f32 hφ) (n : Fin 1024) :
    multiReduction (F := Ideal) .add [1] S1024 X 0x00000000#32 h hφ hacc (ix1 n) = ∑ b : Fin 16, X (ix2 n b) := by
  refine (Ideal.multiReduction_add_single X _ h hφ hacc (ix1 n)).trans ?_
  refine Finset.sum_congr rfl fun b _ => congrArg X (funext fun ax => ?_)
  match ax with
  | ⟨0, _⟩ => rfl
  | ⟨1, _⟩ => rfl

/-! ## The stored value -/

/-- The stored value at element (p, q), when the three index words of row n = 128 p + q are the numerals of rows
    r0, r1, r2. -/
theorem pay_apply (v0 : IVec S1024x3 32) (t0 : FVec Ideal S320x16 .bf16) (t1 : FVec Ideal S320x256 .bf16)
    (t2 : FVec Ideal S320x16 .bf16) (p : Fin 8) (q : Fin 128) (n : Fin 1024) (hn : n.val = p.val * 128 + q.val)
    (r0 r1 r2 : Fin 320) (h0 : v0 (ix2 n (0 : Fin 3)) = BitVec.ofNat 32 r0.val)
    (h1 : v0 (ix2 n (1 : Fin 3)) = BitVec.ofNat 32 r1.val) (h2 : v0 (ix2 n (2 : Fin 3)) = BitVec.ofNat 32 r2.val) :
    k0_pay1 (F := Ideal) v0 t0 t1 t2 (ix2 p q)
      = ∑ b : Fin 16, (∑ a : Fin 16, t0 (ix2 r0 a) * t1 (ix2 r1 (Cert.TT.col a b))) * t2 (ix2 r2 b) := by
  unfold k0_pay1
  dsimp only
  refine (fold_apply _ _ p q n hn).trans ?_
  refine (sum_last_apply _ _ _ _ n).trans ?_
  refine Finset.sum_congr rfl fun b _ => ?_
  refine (mulf_apply _ _ _).trans ?_
  refine congrArg₂ (· * ·) ?_ ?_
  · refine (sum_mid_apply _ _ _ _ n b).trans ?_
    refine Finset.sum_congr rfl fun a _ => ?_
    refine (mulf_apply _ _ _).trans ?_
    refine congrArg₂ (· * ·) ?_ ?_
    · refine (spread_apply _ _ _ n a b).trans ?_
      exact row_narrow _ t0 _ n r0 (fun k => hot_apply v0 0 0 rfl _ n r0 h0 k) a
    · refine (unflatten_apply _ _ n a b).trans ?_
      exact row_wide _ t1 _ n r1 (fun k => hot_apply v0 1 1 rfl _ n r1 h1 k) (Cert.TT.col a b)
  · exact row_narrow _ t2 _ n r2 (fun k => hot_apply v0 2 2 rfl _ n r2 h2 k) b

end Cert.KernelIdeal.Pay

end
-- ==== Proof.HostReads.lean ====
/-
  What the region finds in the four arrays its windows stage, in terms of the arguments: the three tables are the cores
  with the row axis moved to the front (g0 as [320, 16]; g1 as [320, 16 · 16], entry (a, b) of row r at column 16 a + b;
  g2 as [320, 16]), a change of float format being the identity on extended reals; the index array is every index word
  clamped into [0, 319], i.e. the numeral of the row it selects.
-/
import proofs.«410963_j395136991290_2_alg».proof.Proof.Gen.KernelIdeal.Frame
import proofs.«410963_j395136991290_2_alg».proof.Proof.Spec
import Idealize.ShloMosaic.Lib.Pipeline.Value
import Idealize.ShloMosaic.Lib.ValueIdx
import Idealize.ShloMosaic.Lib.StableHlo.Run

noncomputable section

namespace Cert.KernelIdeal.HostReads

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- Table 0 at (r, a) is g0[0, r, a]. -/
theorem table0 (c : Dev nD) (r : Fin 320) (a : Fin 16) :
    (V m c main_v1 : S320x16.Idx → EReal) (ix2 r a)
      = (m ((c : Thread nD τ).loc main_arg0) : S1x320x16.Idx → EReal) (ix3 (0 : Fin 1) r a) := by
  -- the array is the argument reshaped [1, 320, 16] → [320, 16], then narrowed (the identity on extended reals)
  have e : (V m c main_v1 : S320x16.Idx → EReal)
      = (truncf (F := Ideal) .bf16 (shapeCast S320x16 (m ((c : Thread nD τ).loc main_arg0) : FVec Ideal S1x320x16 .f32)
          shapeCasts_S1x320x16_S320x16) bitsLt_bf16_f32 : S320x16.Idx → EReal) := by
    dsimp only [Gen.V, Gen.V0]
    simp only [Gen.hostOps0, Gen.hostOps0_1, List.flatten_cons, List.flatten_nil, List.append_nil, List.cons_append,
      List.nil_append]
    after_results
    rfl
  rw [e, truncf_apply]
  -- (0, r, a) and (r, a) have the same row-major position: (0 · 320 + r) · 16 + a = r · 16 + a
  refine shapeCast_apply _ _ _ (ix3 (0 : Fin 1) r a) ?_
  rewrite [Shape.rowMajor_val_three, Shape.rowMajor_val_two]
  show (0 * 320 + r.val) * 16 + a.val = r.val * 16 + a.val
  omega

/-- Table 1 at (r, 16 a + b) is g1[a, r, b]. -/
theorem table1 (c : Dev nD) (r : Fin 320) (a b : Fin 16) :
    (V m c main_v4 : S320x256.Idx → EReal) (ix2 r (Cert.TT.col a b))
      = (m ((c : Thread nD τ).loc main_arg1) : S16x320x16.Idx → EReal) (ix3 a r b) := by
  -- the array is the argument with its first two axes exchanged, reshaped [320, 16, 16] → [320, 256], then narrowed
  have e : (V m c main_v4 : S320x256.Idx → EReal)
      = (truncf (F := Ideal) .bf16 (shapeCast S320x256 (transpose S320x16x16 [1, 0, 2]
          (m ((c : Thread nD τ).loc main_arg1) : FVec Ideal S16x320x16 .f32) transposes_S16x320x16_S320x16x16_1_0_2)
          shapeCasts_S320x16x16_S320x256) bitsLt_bf16_f32 : S320x256.Idx → EReal) := by
    dsimp only [Gen.V, Gen.V0]
    simp only [Gen.hostOps0, Gen.hostOps0_1, List.flatten_cons, List.flatten_nil, List.append_nil, List.cons_append,
      List.nil_append]
    after_results
    rfl
  rw [e, truncf_apply]
  -- (r, a, b) and (r, 16 a + b) have the same row-major position: (r · 16 + a) · 16 + b = r · 256 + (a · 16 + b)
  rw [shapeCast_apply _ _ _ (ix3 r a b) (by
    rewrite [Shape.rowMajor_val_three, Shape.rowMajor_val_two]
    show (r.val * 16 + a.val) * 16 + b.val = r.val * 256 + (a.val * 16 + b.val)
    omega)]
  -- the exchange of axes reads (r, a, b) at (a, r, b)
  refine transpose_apply _ _ _ _ (ix3 a r b) ?_
  intro d
  match d with
  | ⟨0, _⟩ => rfl
  | ⟨1, _⟩ => rfl
  | ⟨2, _⟩ => rfl

/-- Table 2 at (r, b) is g2[b, r, 0]. -/
theorem table2 (c : Dev nD) (r : Fin 320) (b : Fin 16) :
    (V m c main_v7 : S320x16.Idx → EReal) (ix2 r b)
      = (m ((c : Thread nD τ).loc main_arg2) : S16x320x1.Idx → EReal) (ix3 b r (0 : Fin 1)) := by
  -- the array is the argument with its first two axes exchanged, reshaped [320, 16, 1] → [320, 16], then narrowed
  have e : (V m c main_v7 : S320x16.Idx → EReal)
      = (truncf (F := Ideal) .bf16 (shapeCast S320x16 (transpose S320x16x1 [1, 0, 2]
          (m ((c : Thread nD τ).loc main_arg2) : FVec Ideal S16x320x1 .f32) transposes_S16x320x1_S320x16x1_1_0_2)
          shapeCasts_S320x16x1_S320x16) bitsLt_bf16_f32 : S320x16.Idx → EReal) := by
    dsimp only [Gen.V, Gen.V0]
    simp only [Gen.hostOps0, Gen.hostOps0_1, List.flatten_cons, List.flatten_nil, List.append_nil, List.cons_append,
      List.nil_append]
    after_results
    rfl
  rw [e, truncf_apply]
  -- (r, b, 0) and (r, b) have the same row-major position: (r · 16 + b) · 1 + 0 = r · 16 + b
  rw [shapeCast_apply _ _ _ (ix3 r b (0 : Fin 1)) (by
    rewrite [Shape.rowMajor_val_three, Shape.rowMajor_val_two]
    show (r.val * 16 + b.val) * 1 + 0 = r.val * 16 + b.val
    omega)]
  -- the exchange of axes reads (r, b, 0) at (b, r, 0)
  refine transpose_apply _ _ _ _ (ix3 b r (0 : Fin 1)) ?_
  intro d
  match d with
  | ⟨0, _⟩ => rfl
  | ⟨1, _⟩ => rfl
  | ⟨2, _⟩ => rfl

/-- The staged index array at (n, k) is the numeral of the row the argument's word selects. -/
theorem clipped (c : Dev nD) (n : Fin 8192) (k : Fin 3) :
    (V m c main_v8 : S8192x3.Idx → BitVec 32) (ix2 n k)
      = BitVec.ofNat 32 (Cert.TT.row ((m ((c : Thread nD τ).loc main_arg3) : S8192x3.Idx → BitVec 32) (ix2 n k))).val := by
  -- the array is the elementwise signed minimum of 319 with the elementwise signed maximum of 0 with the argument
  have e : (V m c main_v8 : S8192x3.Idx → BitVec 32)
      = (minsi (broadcastInDim S8192x3 ![] bcast_S_S8192x3 (id (constantI S_ 32 319#32)))
          (maxsi (broadcastInDim S8192x3 ![] bcast_S_S8192x3 (id (constantI S_ 32 0#32)))
            (m ((c : Thread nD τ).loc main_arg3) : IVec S8192x3 32)) : S8192x3.Idx → BitVec 32) := by
    dsimp only [Gen.V, Gen.V0]
    simp only [Gen.hostOps0, Gen.hostOps0_1, List.flatten_cons, List.flatten_nil, List.append_nil, List.cons_append,
      List.nil_append]
    after_results
    rfl
  rw [e]
  -- at an index both are the words' operations, a broadcast constant reading as its word
  show IntOp.minsi 319#32 (IntOp.maxsi 0#32 ((m ((c : Thread nD τ).loc main_arg3) : S8192x3.Idx → BitVec 32) (ix2 n k))) = _
  exact Cert.TT.clip_eq_ofNat _

end Cert.KernelIdeal.HostReads

end
-- ==== Proof.KernelValue.lean ====
/-
  The kernel's result array as one function of the arguments.

  Grid point t stages rows 1024 t … 1024 t + 1023 of the (clamped) index array and the three whole tables, and writes
  back rows 8 t … 8 t + 7 of the [64, 128] output array. Element (p, q) of that block is the body's stored value at
  (p, q), which by the payload lemma is the nested sum over the table rows the three index words of row 128 p + q of the
  staged index block select; those words are the numerals of the rows the ARGUMENT's words at row 1024 t + 128 p + q
  select, and the tables' rows are the cores' — so the block is block t of the array whose element (R, q) is the
  specification at n = 128 R + q. The eight blocks tile the array, so it ends holding that function; the program's last
  line reshapes [64, 128] to [8192], element n reading (n / 128, n % 128), which is the specification at n.
-/
import proofs.«410963_j395136991290_2_alg».proof.Proof.Gen.KernelIdeal.Frame
import proofs.«410963_j395136991290_2_alg».proof.Proof.Spec
import proofs.«410963_j395136991290_2_alg».proof.Proof.Payload
import proofs.«410963_j395136991290_2_alg».proof.Proof.HostReads
import Idealize.ShloMosaic.Lib.Pipeline.Value
import Idealize.ShloMosaic.Lib.StableHlo.Run
import Idealize.ShloMosaic.Lib.ValueIdx
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arguments, named -/

abbrev g0 (c : Dev nD) : S1x320x16.Idx → EReal := m ((c : Thread nD τ).loc main_arg0)
abbrev g1 (c : Dev nD) : S16x320x16.Idx → EReal := m ((c : Thread nD τ).loc main_arg1)
abbrev g2 (c : Dev nD) : S16x320x1.Idx → EReal := m ((c : Thread nD τ).loc main_arg2)
abbrev idxs (c : Dev nD) : S8192x3.Idx → BitVec 32 := m ((c : Thread nD τ).loc main_arg3)

/-- The result as this device's arguments give it. -/
abbrev result (c : Dev nD) : S8192.Idx → EReal := Cert.TT.G (g0 m c) (g1 m c) (g2 m c) (idxs m c)

/-- The specification at result element N, spelt out. -/
theorem result_apply (c : Dev nD) (n : S8192.Idx) (N : Fin 8192) (h : (n 0).val = N.val) :
    result m c n = Cert.TT.entry (g0 m c) (g1 m c) (g2 m c) (Cert.TT.row (idxs m c (ix2 N (0 : Fin 3))))
      (Cert.TT.row (idxs m c (ix2 N (1 : Fin 3)))) (Cert.TT.row (idxs m c (ix2 N (2 : Fin 3)))) := by
  have e : n 0 = N := Fin.ext h
  show Cert.TT.entry _ _ _ (Cert.TT.row (idxs m c (ix2 (n 0) (0 : Fin 3)))) (Cert.TT.row (idxs m c (ix2 (n 0) (1 : Fin 3))))
    (Cert.TT.row (idxs m c (ix2 (n 0) (2 : Fin 3)))) = _
  rw [e]

/-- The [64, 128] output array: element (R, q) is result element 128 R + q. -/
def blocks (c : Dev nD) : S64x128.Idx → EReal :=
  fun i => result m c (ix1 (⟨(i 0).val * 128 + (i 1).val, by have h0 : (i 0).val < 64 := (i 0).isLt; have h1 : (i 1).val < 128 := (i 1).isLt; omega⟩ : Fin 8192))

/-! ## The index maps, decided over the eight grid points -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each staged block, read at an element -/

/-- Table 0's block is the whole table: entry (r, a) is g0[0, r, a]. -/
theorem tblk0 (c : Dev nD) (t : Fin cfg0.N) (r : Fin 320) (a : Fin 16) :
    (iblk m c 0 t : FVec Ideal S320x16 .bf16) (ix2 r a) = g0 m c (ix3 (0 : Fin 1) r a) := by
  obtain ⟨e0, e1, -⟩ := idx_facts t
  unfold iblk
  rw [View.read_apply]
  refine Eq.trans ?_ (HostReads.table0 m c r a)
  show V m c main_v1 _ = V m c main_v1 _
  congr 1
  funext d; apply Fin.ext
  match d with
  | ⟨0, _⟩ => show win0_0.index t (0 : Fin 2) * 320 + 1 * r.val = r.val; rw [e0]; omega
  | ⟨1, _⟩ => show win0_0.index t (1 : Fin 2) * 16 + 1 * a.val = a.val; rw [e1]; omega

/-- Table 1's block is the whole table: entry (r, 16 a + b) is g1[a, r, b]. -/
theorem tblk1 (c : Dev nD) (t : Fin cfg0.N) (r : Fin 320) (a b : Fin 16) :
    (iblk m c 1 t : FVec Ideal S320x256 .bf16) (ix2 r (Cert.TT.col a b)) = g1 m c (ix3 a r b) := by
  obtain ⟨-, -, e0, e1, -⟩ := idx_facts t
  unfold iblk
  rw [View.read_apply]
  refine Eq.trans ?_ (HostReads.table1 m c r a b)
  show V m c main_v4 _ = V m c main_v4 _
  congr 1
  funext d; apply Fin.ext
  match d with
  | ⟨0, _⟩ => show win0_1.index t (0 : Fin 2) * 320 + 1 * r.val = r.val; rw [e0]; omega
  | ⟨1, _⟩ => show win0_1.index t (1 : Fin 2) * 256 + 1 * (Cert.TT.col a b).val = (Cert.TT.col a b).val; rw [e1]; omega

/-- Table 2's block is the whole table: entry (r, b) is g2[b, r, 0]. -/
theorem tblk2 (c : Dev nD) (t : Fin cfg0.N) (r : Fin 320) (b : Fin 16) :
    (iblk m c 2 t : FVec Ideal S320x16 .bf16) (ix2 r b) = g2 m c (ix3 b r (0 : Fin 1)) := by
  obtain ⟨-, -, -, -, e0, e1, -⟩ := idx_facts t
  unfold iblk
  rw [View.read_apply]
  refine Eq.trans ?_ (HostReads.table2 m c r b)
  show V m c main_v7 _ = V m c main_v7 _
  congr 1
  funext d; apply Fin.ext
  match d with
  | ⟨0, _⟩ => show win0_2.index t (0 : Fin 2) * 320 + 1 * r.val = r.val; rw [e0]; omega
  | ⟨1, _⟩ => show win0_2.index t (1 : Fin 2) * 16 + 1 * b.val = b.val; rw [e1]; omega

/-- The index block at point t: row n, word k is the numeral of the row the argument's word (1024 t + n, k) selects. -/
theorem iblk3 (c : Dev nD) (t : Fin cfg0.N) (n : Fin 1024) (k : Fin 3) (N : Fin 8192) (hN : N.val = t.val * 1024 + n.val) :
    (iblk m c 3 t : IVec S1024x3 32) (ix2 n k) = BitVec.ofNat 32 (Cert.TT.row (idxs m c (ix2 N k))).val := by
  obtain ⟨-, -, -, -, -, -, e0, e1, -⟩ := idx_facts t
  unfold iblk
  rw [View.read_apply]
  refine Eq.trans ?_ (HostReads.clipped m c N k)
  show V m c main_v8 _ = V m c main_v8 _
  congr 1
  funext d; apply Fin.ext
  match d with
  | ⟨0, _⟩ => show win0_3.index t (0 : Fin 2) * 1024 + 1 * n.val = N.val; rw [e0, hN]; omega
  | ⟨1, _⟩ => show win0_3.index t (1 : Fin 2) * 3 + 1 * k.val = k.val; rw [e1]; omega

/-! ## What a point writes back -/

theorem hz2 : (![0, 0] : Fin 2 → Nat) = fun _ => 0 := funext fun a => by fin_cases a <;> rfl

/-- Point t writes back block t of `blocks`. -/
theorem flushed_eq (c : Dev nD) (t : Fin cfg0.N) :
    (dats m 0 c).flushed 4 t = ((cfg0.win 4).blk t).view.read (Elt Ideal) (blocks m c) := by
  show (cfg0.win 4).cut (grid0.coords t) ((dats m 0 c).after 4 t) = _
  rw [after0_4]
  unfold out0_4
  rw [View.canon_unit_zero hz2]
  simp only [View.ld_unit_zero (S := S1024x3) hz2, View.ld_unit_zero (S := S320x16) hz2, View.ld_unit_zero (S := S320x256) hz2]
  funext j
  obtain ⟨p, q, rfl⟩ : ∃ (p : Fin 8) (q : Fin 128), j = ix2 p q := ⟨j 0, j 1, eq_ix2 j⟩
  have ht : t.val < 8 := t.isLt
  obtain ⟨-, -, -, -, -, -, -, -, e0, e1⟩ := idx_facts t
  have hp : p.val < 8 := p.isLt
  have hq : q.val < 128 := q.isLt
  let n : Fin 1024 := ⟨p.val * 128 + q.val, by omega⟩
  let N : Fin 8192 := ⟨t.val * 1024 + n.val, by show t.val * 1024 + (p.val * 128 + q.val) < 8192; omega⟩
  show k0_pay1 (F := Ideal) (iblk m c 3 t) (iblk m c 0 t) (iblk m c 1 t) (iblk m c 2 t) (ix2 p q)
    = blocks m c (((cfg0.win 4).blk t).view.emb (ix2 p q))
  have hb : blocks m c (((cfg0.win 4).blk t).view.emb (ix2 p q))
      = Cert.TT.entry (g0 m c) (g1 m c) (g2 m c) (Cert.TT.row (idxs m c (ix2 N (0 : Fin 3))))
          (Cert.TT.row (idxs m c (ix2 N (1 : Fin 3)))) (Cert.TT.row (idxs m c (ix2 N (2 : Fin 3)))) := by
    unfold blocks
    refine result_apply m c _ N ?_
    show (win0_4.index t (0 : Fin 2) * 8 + 1 * p.val) * 128 + (win0_4.index t (1 : Fin 2) * 128 + 1 * q.val)
      = t.val * 1024 + (p.val * 128 + q.val)
    rw [e0, e1]; omega
  rw [hb]
  refine (Pay.pay_apply (iblk m c 3 t) (iblk m c 0 t) (iblk m c 1 t) (iblk m c 2 t) p q n rfl
    (Cert.TT.row (idxs m c (ix2 N (0 : Fin 3)))) (Cert.TT.row (idxs m c (ix2 N (1 : Fin 3))))
    (Cert.TT.row (idxs m c (ix2 N (2 : Fin 3)))) (iblk3 m c t n 0 N rfl) (iblk3 m c t n 1 N rfl) (iblk3 m c t n 2 N rfl)).trans ?_
  unfold Cert.TT.entry
  refine Finset.sum_congr rfl fun b _ => ?_
  rw [tblk2 m c t]
  refine congrArg (· * _) (Finset.sum_congr rfl fun a _ => ?_)
  rw [tblk0 m c t, tblk1 m c t]

/-! ## The eight blocks tile the array -/

/-- An index of the output array is in point t's block iff its row is among rows 8 t … 8 t + 7. -/
theorem mem_blk (t : Fin cfg0.N) (i : S64x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v9).slice (win0_4.rect t)).set ↔ _
  rw [View.set_slice_whole, Rect.mem_set_unit]
  exact Iff.rfl

/-- Row R lies in the block of point R / 8. -/
theorem cover (i : S64x128.Idx) : ∃ t : Fin cfg0.N, (cfg0.win 4).flush t = true ∧ i ∈ ((cfg0.win 4).blk t).view.set := by
  have h0 : (i 0).val < 64 := (i 0).isLt
  have h1 : (i 1).val < 128 := (i 1).isLt
  let t : Fin cfg0.N := ⟨(i 0).val / 8, by show (i 0).val / 8 < 8; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 8 ≤ (i 0).val ∧ (i 0).val < win0_4.index t (0 : Fin 2) * 8 + 8
    rw [e0]; show (i 0).val / 8 * 8 ≤ (i 0).val ∧ (i 0).val < (i 0).val / 8 * 8 + 8; omega
  | ⟨1, _⟩ =>
    show win0_4.index t (1 : Fin 2) * 128 ≤ (i 1).val ∧ (i 1).val < win0_4.index t (1 : Fin 2) * 128 + 128
    rw [e1]; omega

/-- So the output array ends holding `blocks`. -/
theorem final (c : Dev nD) : (dats m 0 c).arrAt 4 cfg0.N = blocks m c :=
  (dats m 0 c).arrAt_eq_of_cover 4 (blocks m c) (fun t _ => flushed_eq m c t) cover

/-! ## The last line: [64, 128] reshaped to [8192] -/

theorem tail (c : Dev nD) : Pipeline.afterTail₀ cfgs (dats m) 0 (V0 m) [hostOps1] c main_v10 = result m c := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v9) = blocks m c :=
    (Pipeline.withArrays_arr spec0 launch0.win.arr_inj c _ _ 4).trans (final m c)
  funext n
  show shapeCast S8192 (Pipeline.withArrays (cfgs 0).spec c (V0 m c) (fun w => (dats m 0 c).arrAt w (cfgs 0).N)
      (Proc.devRef .tc main_v9)) shapeCasts_S64x128_S8192 n = _
  rw [hw]
  have hn : (n 0).val < 8192 := (n 0).isLt
  let k : S64x128.Idx := ix2 (⟨(n 0).val / 128, by omega⟩ : Fin 64) (⟨(n 0).val % 128, by omega⟩ : Fin 128)
  refine (shapeCast_apply (blocks m c) shapeCasts_S64x128_S8192 n k (by
    rewrite [Shape.rowMajor_val_two, Shape.rowMajor_val_one]
    show (n 0).val / 128 * 128 + (n 0).val % 128 = (n 0).val; omega)).trans ?_
  show result m c (ix1 (⟨(n 0).val / 128 * 128 + (n 0).val % 128, _⟩ : Fin 8192)) = result m c n
  congr 1
  funext d
  match d with
  | ⟨0, _⟩ => exact Fin.ext (by show (n 0).val / 128 * 128 + (n 0).val % 128 = (n 0).val; omega)

/-! ## The run, read -/

/-- Every weakly fair execution of the kernel's program terminates with the result array at the specification of the
    arguments, and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v10 (Pipeline.mem_restRefs_of main_v10 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference's result, read one operation at a time, is the specification: its two products build the tensor's
  entries in the nesting  ∑ b, (∑ a, g0 · g1) · g2 , its index arithmetic leaves a non-negative word alone, and its
  gather reads the tensor at the three words clamped into [0, 319].
-/
import proofs.«410963_j395136991290_2_alg».proof.Proof.Gen.ReferenceIdeal.Read
import proofs.«410963_j395136991290_2_alg».proof.Proof.Spec
import Idealize.ShloMosaic.Lib.Pipeline.Value
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-! ## The row-major arithmetic of the reshapes -/

theorem e6 (r0 r1 r2 : Fin 320) :
    idx_main_v6 (ix3 r0 r1 r2) = ix2 (⟨r0.val * 320 + r1.val, by omega⟩ : Fin 102400) r2 := by
  funext d
  match d with
  | ⟨0, _⟩ => exact Fin.ext (by show ((r0.val * 320 + r1.val) * 320 + r2.val) / 320 = r0.val * 320 + r1.val; omega)
  | ⟨1, _⟩ => exact Fin.ext (by show ((r0.val * 320 + r1.val) * 320 + r2.val) % 320 = r2.val; omega)

/-- The second product's left operand is read at (row, b). -/
theorem el5 (m : Fin 102400) (c : Fin 320) (b : Fin 16) : lidx_main_v5 (ix2 m c) b = ix2 m b := by
  funext d
  match d with
  | ⟨0, _⟩ => rfl
  | ⟨1, _⟩ => rfl

/-- The second product's right operand is read at (b, column). -/
theorem er5 (m : Fin 102400) (c : Fin 320) (b : Fin 16) : ridx_main_v5 (ix2 m c) b = ix2 b c := by
  funext d
  match d with
  | ⟨0, _⟩ => rfl
  | ⟨1, _⟩ => rfl

/-- Position ((r0 · 320 + r1) · 16 + b) of the [102400, 16] array is position (r0, r1 · 16 + b) of the [320, 5120]
    product. -/
theorem e3 (r0 r1 : Fin 320) (b : Fin 16) :
    idx_main_v3 (ix2 (⟨r0.val * 320 + r1.val, by omega⟩ : Fin 102400) b)
      = ix2 r0 (⟨r1.val * 16 + b.val, by omega⟩ : Fin 5120) := by
  funext d
  match d with
  | ⟨0, _⟩ => exact Fin.ext (by show ((r0.val * 320 + r1.val) * 16 + b.val) / 5120 = r0.val; omega)
  | ⟨1, _⟩ => exact Fin.ext (by show ((r0.val * 320 + r1.val) * 16 + b.val) % 5120 = r1.val * 16 + b.val; omega)

/-- The first product's left operand is read at (row, a). -/
theorem el2 (r : Fin 320) (c : Fin 5120) (a : Fin 16) : lidx_main_v2 (ix2 r c) a = ix2 r a := by
  funext d
  match d with
  | ⟨0, _⟩ => rfl
  | ⟨1, _⟩ => rfl

/-- The first product's right operand is read at (a, column). -/
theorem er2 (r : Fin 320) (c : Fin 5120) (a : Fin 16) : ridx_main_v2 (ix2 r c) a = ix2 a c := by
  funext d
  match d with
  | ⟨0, _⟩ => rfl
  | ⟨1, _⟩ => rfl

/-- Position (r, a) of g0 as [320, 16] is g0[0, r, a]. -/
theorem e0 (r : Fin 320) (a : Fin 16) : idx_main_v0 (ix2 r a) = ix3 (0 : Fin 1) r a := by
  funext d
  match d with
  | ⟨0, _⟩ => rfl
  | ⟨1, _⟩ => exact Fin.ext (by show (r.val * 16 + a.val) / 16 % 320 = r.val; omega)
  | ⟨2, _⟩ => exact Fin.ext (by show (r.val * 16 + a.val) % 16 = a.val; omega)

/-- Position (a, r1 · 16 + b) of g1 as [16, 5120] is g1[a, r1, b]. -/
theorem e1 (a : Fin 16) (r1 : Fin 320) (b : Fin 16) :
    idx_main_v1 (ix2 a (⟨r1.val * 16 + b.val, by omega⟩ : Fin 5120)) = ix3 a r1 b := by
  funext d
  match d with
  | ⟨0, _⟩ => exact Fin.ext (by show (a.val * 5120 + (r1.val * 16 + b.val)) / 5120 = a.val; omega)
  | ⟨1, _⟩ => exact Fin.ext (by show (a.val * 5120 + (r1.val * 16 + b.val)) / 16 % 320 = r1.val; omega)
  | ⟨2, _⟩ => exact Fin.ext (by show (a.val * 5120 + (r1.val * 16 + b.val)) % 16 = b.val; omega)

/-- Position (b, r2) of g2 as [16, 320] is g2[b, r2, 0]. -/
theorem e4 (b : Fin 16) (r2 : Fin 320) : idx_main_v4 (ix2 b r2) = ix3 b r2 (0 : Fin 1) := by
  funext d
  match d with
  | ⟨0, _⟩ => exact Fin.ext (by show (b.val * 320 + r2.val) / 320 = b.val; omega)
  | ⟨1, _⟩ => exact Fin.ext (by show (b.val * 320 + r2.val) / 1 % 320 = r2.val; omega)
  | ⟨2, _⟩ => rfl

/-- The tensor the two products and the reshapes build, at (r0, r1, r2). -/
theorem v6_entry (x0 : FVec Ideal S1x320x16 .f32) (x1 : FVec Ideal S16x320x16 .f32) (x2 : FVec Ideal S16x320x1 .f32)
    (r0 r1 r2 : Fin 320) :
    val_main_v6 (F := Ideal) x0 x1 x2 (ix3 r0 r1 r2) = Cert.TT.entry x0 x1 x2 r0 r1 r2 := by
  rw [val_main_v6_apply, e6, val_main_v5_apply]
  unfold Cert.TT.entry
  refine Finset.sum_congr rfl fun b _ => ?_
  rw [el5, er5, val_main_v3_apply, e3, val_main_v2_apply, val_main_v4_apply, e4]
  congr 1
  refine Finset.sum_congr rfl fun a _ => ?_
  rw [el2, er2, val_main_v0_apply, e0, val_main_v1_apply, e1]

/-! ## The concatenated index array is the argument's -/

theorem i7 (i : S8192x1.Idx) : idx_main_v7 (idx_main_v8 (idx_main_v28 i)) = ix2 (i 0) (0 : Fin 3) := by
  funext d
  match d with
  | ⟨0, _⟩ => exact Fin.ext (by show (i 0).val / 1 = (i 0).val; omega)
  | ⟨1, _⟩ => rfl

/-- Row n of column 1 is position (n, 1) of the index array. -/
theorem i9 (i : S8192x1.Idx) : idx_main_v9 (idx_main_v10 (idx_main_v29 i)) = ix2 (i 0) (1 : Fin 3) := by
  funext d
  match d with
  | ⟨0, _⟩ => exact Fin.ext (by show (i 0).val / 1 = (i 0).val; omega)
  | ⟨1, _⟩ => rfl

/-- Row n of column 2 is position (n, 2) of the index array. -/
theorem i11 (i : S8192x1.Idx) : idx_main_v11 (idx_main_v12 (idx_main_v30 i)) = ix2 (i 0) (2 : Fin 3) := by
  funext d
  match d with
  | ⟨0, _⟩ => exact Fin.ext (by show (i 0).val / 1 = (i 0).val; omega)
  | ⟨1, _⟩ => rfl

/-- Column 0 before the concatenation: the word of column 0, "add 320 if negative" leaving it alone. -/
theorem v28_at (x3 : IVec S8192x3 32) (h : ∀ i, 0 ≤ (x3 i).toInt) (i : S8192x1.Idx) :
    val_main_v28 (F := Ideal) x3 i = x3 (ix2 (i 0) (0 : Fin 3)) := by
  rw [val_main_v28_apply, val_main_v17_apply, val_main_v14_apply, val_main_v16_apply, val_main_v13_apply,
    val_main_v15_apply, val_main_c_apply, val_main_c_0_apply, val_main_v8_apply, val_main_v7_apply, i7]
  exact Cert.TT.wrap_of_nonneg (h _)

/-- Column 1 before the concatenation: the word of column 1. -/
theorem v29_at (x3 : IVec S8192x3 32) (h : ∀ i, 0 ≤ (x3 i).toInt) (i : S8192x1.Idx) :
    val_main_v29 (F := Ideal) x3 i = x3 (ix2 (i 0) (1 : Fin 3)) := by
  rw [val_main_v29_apply, val_main_v22_apply, val_main_v19_apply, val_main_v21_apply, val_main_v18_apply,
    val_main_v20_apply, val_main_c_1_apply, val_main_c_2_apply, val_main_v10_apply, val_main_v9_apply, i9]
  exact Cert.TT.wrap_of_nonneg (h _)

/-- Column 2 before the concatenation: the word of column 2. -/
theorem v30_at (x3 : IVec S8192x3 32) (h : ∀ i, 0 ≤ (x3 i).toInt) (i : S8192x1.Idx) :
    val_main_v30 (F := Ideal) x3 i = x3 (ix2 (i 0) (2 : Fin 3)) := by
  rw [val_main_v30_apply, val_main_v27_apply, val_main_v24_apply, val_main_v26_apply, val_main_v23_apply,
    val_main_v25_apply, val_main_c_3_apply, val_main_c_4_apply, val_main_v12_apply, val_main_v11_apply, i11]
  exact Cert.TT.wrap_of_nonneg (h _)

/-- Element (n, 0) of the concatenation is element (n, 0) of column 0. -/
theorem v31_col0 (x3 : IVec S8192x3 32) (n : Fin 8192) :
    val_main_v31 (F := Ideal) x3 (ix2 n (0 : Fin 3)) = val_main_v28 (F := Ideal) x3 (ix2 n (0 : Fin 1)) := by
  unfold val_main_v31
  refine concatenate_apply_piece (1 : Fin S8192x3.rank)
    [⟨S8192x1, val_main_v28 (F := Ideal) x3⟩, ⟨S8192x1, val_main_v29 (F := Ideal) x3⟩, ⟨S8192x1, val_main_v30 (F := Ideal) x3⟩]
    Facts₀.concatenates_S8192x1_S8192x1_S8192x1_S8192x3_d1 (ix2 n (0 : Fin 3)) 0 (by show (0 : Nat) < 3; omega) S8192x1
    (val_main_v28 (F := Ideal) x3) rfl rfl 0 rfl (ix2 n (0 : Fin 1)) ?_ ?_
  · intro b hb
    match b with
    | ⟨0, _⟩ => rfl
    | ⟨1, _⟩ => exact absurd rfl hb
  · rfl

/-- Element (n, 1) of the concatenation is element (n, 0) of column 1. -/
theorem v31_col1 (x3 : IVec S8192x3 32) (n : Fin 8192) :
    val_main_v31 (F := Ideal) x3 (ix2 n (1 : Fin 3)) = val_main_v29 (F := Ideal) x3 (ix2 n (0 : Fin 1)) := by
  unfold val_main_v31
  refine concatenate_apply_piece (1 : Fin S8192x3.rank)
    [⟨S8192x1, val_main_v28 (F := Ideal) x3⟩, ⟨S8192x1, val_main_v29 (F := Ideal) x3⟩, ⟨S8192x1, val_main_v30 (F := Ideal) x3⟩]
    Facts₀.concatenates_S8192x1_S8192x1_S8192x1_S8192x3_d1 (ix2 n (1 : Fin 3)) 1 (by show (1 : Nat) < 3; omega) S8192x1
    (val_main_v29 (F := Ideal) x3) rfl rfl 1 rfl (ix2 n (0 : Fin 1)) ?_ ?_
  · intro b hb
    match b with
    | ⟨0, _⟩ => rfl
    | ⟨1, _⟩ => exact absurd rfl hb
  · rfl

/-- Element (n, 2) of the concatenation is element (n, 0) of column 2. -/
theorem v31_col2 (x3 : IVec S8192x3 32) (n : Fin 8192) :
    val_main_v31 (F := Ideal) x3 (ix2 n (2 : Fin 3)) = val_main_v30 (F := Ideal) x3 (ix2 n (0 : Fin 1)) := by
  unfold val_main_v31
  refine concatenate_apply_piece (1 : Fin S8192x3.rank)
    [⟨S8192x1, val_main_v28 (F := Ideal) x3⟩, ⟨S8192x1, val_main_v29 (F := Ideal) x3⟩, ⟨S8192x1, val_main_v30 (F := Ideal) x3⟩]
    Facts₀.concatenates_S8192x1_S8192x1_S8192x1_S8192x3_d1 (ix2 n (2 : Fin 3)) 2 (by show (2 : Nat) < 3; omega) S8192x1
    (val_main_v30 (F := Ideal) x3) rfl rfl 2 rfl (ix2 n (0 : Fin 1)) ?_ ?_
  · intro b hb
    match b with
    | ⟨0, _⟩ => rfl
    | ⟨1, _⟩ => exact absurd rfl hb
  · rfl

/-! ## The gather -/

/-- One coordinate of the operand index the gather reads at result index m: operand axis a is collapsed and is component
    a of the start index, so the coordinate is the start word at (m, a), read signed and clamped into [0, 319]. -/
theorem gather_coord (idx : IVec S8192x3 32) (m : Fin 8192) (a : Fin 3)
    (hc : a ∈ gather_S320x320x320_S8192x3_S8192_n_012_n_n_012_1_111.collapsedSliceDims)
    (hm : a ∈ gather_S320x320x320_S8192x3_S8192_n_012_n_n_012_1_111.startIndexMap)
    (hi : List.idxOf a gather_S320x320x320_S8192x3_S8192_n_012_n_n_012_1_111.startIndexMap = a.val)
    (hs : S320x320x320.size a - gather_S320x320x320_S8192x3_S8192_n_012_n_n_012_1_111.sliceSizes a = 319) :
    (gather_S320x320x320_S8192x3_S8192_n_012_n_n_012_1_111.operandIdx (ix1 m) idx a).val
      = min (idx (ix2 m a)).toInt.toNat 319 := by
  show gather_S320x320x320_S8192x3_S8192_n_012_n_n_012_1_111.start (ix1 m) idx a
    + gather_S320x320x320_S8192x3_S8192_n_012_n_n_012_1_111.batchCoord (ix1 m) a
    + gather_S320x320x320_S8192x3_S8192_n_012_n_n_012_1_111.offCoord (ix1 m) a = _
  rw [GatherDims.batchCoord_eq_zero _ _ _ List.not_mem_nil,
    GatherDims.offCoord_eq_zero _ _ _ (fun hk => ((GatherDims.mem_sKept _ _).mp hk).1 hc)]
  simp only [Nat.add_zero]
  unfold GatherDims.start
  rw [dif_pos hm, hs]
  have hsi : gather_S320x320x320_S8192x3_S8192_n_012_n_n_012_1_111.siIdx (ix1 m)
      ⟨List.idxOf a gather_S320x320x320_S8192x3_S8192_n_012_n_n_012_1_111.startIndexMap,
        List.idxOf_lt_length_iff.2 hm⟩ = ix2 m a := by
    funext b
    refine Fin.ext ?_
    match b with
    | ⟨0, _⟩ => rfl
    | ⟨1, _⟩ => exact hi
  rw [hsi]

/-- The gather at result index m reads the operand at the three start words of row m, each read signed and clamped into
    [0, 319]. -/
theorem gather_at {α : Type} (x : S320x320x320.Idx → α) (idx : IVec S8192x3 32) (m : Fin 8192) :
    Host.gather gather_S320x320x320_S8192x3_S8192_n_012_n_n_012_1_111 x idx (ix1 m)
      = x (ix3 (Cert.TT.row (idx (ix2 m (0 : Fin 3)))) (Cert.TT.row (idx (ix2 m (1 : Fin 3))))
          (Cert.TT.row (idx (ix2 m (2 : Fin 3))))) := by
  unfold Host.gather
  congr 1
  funext a
  refine Fin.ext ?_
  match a with
  | ⟨0, _⟩ => exact gather_coord idx m 0 (by decide) (by decide) (by decide) (by decide)
  | ⟨1, _⟩ => exact gather_coord idx m 1 (by decide) (by decide) (by decide) (by decide)
  | ⟨2, _⟩ => exact gather_coord idx m 2 (by decide) (by decide) (by decide) (by decide)

/-! ## The result -/

/-- Under index words that are not negative, the reference's result array is the specification's. -/
theorem ref_is_G (x0 : FVec Ideal S1x320x16 .f32) (x1 : FVec Ideal S16x320x16 .f32) (x2 : FVec Ideal S16x320x1 .f32)
    (x3 : IVec S8192x3 32) (h : ∀ i, 0 ≤ (x3 i).toInt) :
    val_main_v32 (F := Ideal) x0 x1 x2 x3 = Cert.TT.G x0 x1 x2 x3 := by
  funext n
  obtain ⟨m, rfl⟩ : ∃ m : Fin 8192, n = ix1 m := ⟨n 0, eq_ix1 n⟩
  have hG : Cert.TT.G x0 x1 x2 x3 (ix1 m)
      = Cert.TT.entry x0 x1 x2 (Cert.TT.row (x3 (ix2 m (0 : Fin 3)))) (Cert.TT.row (x3 (ix2 m (1 : Fin 3))))
          (Cert.TT.row (x3 (ix2 m (2 : Fin 3)))) := rfl
  rw [hG]
  unfold val_main_v32
  rw [gather_at, v31_col0, v31_col1, v31_col2, v28_at x3 h, v29_at x3 h, v30_at x3 h, v6_entry]

end Cert.ReferenceIdeal.RefValue

end
-- ==== Proof.PreDecode.lean ====
/-
  The precondition, read: its last conjunct says every index word is at least 0 as a signed number.
-/
import proofs.«410963_j395136991290_2_alg».proof.Pre_finite_inputs
import proofs.«410963_j395136991290_2_alg».proof.Proof.Spec
import Idealize.ShloMosaic.Lib.ReduceAll
import Idealize.ShloMosaic.Lib.ValueIdx

noncomputable section

namespace Cert.Pre_finite_inputs.Decode

open Idealize.ShloMosaic Idealize.ShloMosaic.ValueIdx Cert.Pre_finite_inputs

/-- Where the precondition holds, no index word is negative. -/
theorem idx_nonneg [Cert.Pre_finite_inputs.Facts] (x0 : FVec Ideal S1x320x16 .f32) (x1 : FVec Ideal S16x320x16 .f32)
    (x2 : FVec Ideal S16x320x1 .f32) (x3 : IVec S8192x3 32)
    (h : Cert.Pre_finite_inputs.fn (F := Ideal) x0 x1 x2 x3 = fun _ => 1#1) : ∀ i, 0 ≤ (x3 i).toInt := by
  intro i
  -- the scalar shape has one index
  haveI : Subsingleton S_.Idx := ⟨fun a b => funext fun d => d.elim0⟩
  -- the predicate at its one index is a conjunction of four bits, the last the "and" over all index words of "0 ≤ word"
  have h0 := congrFun h ValueIdx.ix0
  dsimp only [Cert.Pre_finite_inputs.fn, Cert.Pre_finite_inputs.fn_part1] at h0
  have h1 := (IntOp.andi_eq_one.1 h0).2
  -- an "and" over all elements that is 1 met a 1 at every element
  have h2 := Host.reduce_andi_all _ _ _ _ _ h1 i
  -- at an element the comparison is the words' signed "0 ≤ word"
  exact Cert.TT.nonneg_of_sge h2

end Cert.Pre_finite_inputs.Decode

end
-- ==== Proof.lean ====
/-
  A tensor-train gather: the three cores g0 : [1, 320, 16], g1 : [16, 320, 16], g2 : [16, 320, 1] represent the
  320 × 320 × 320 tensor with entries  ∑ b, (∑ a, g0[0, r0, a] · g1[a, r1, b]) · g2[b, r2, 0], and each of the 8192 rows
  of the index array names one entry to return.

  The reference builds the whole tensor by two matrix products (the cores reshaped) and gathers the named entries; an
  index word that is negative has 320 added first, and the gather clamps each word into [0, 319]. The kernel never
  builds the tensor: it clamps every index word into [0, 319], and per block of 1024 rows compares each word with the
  row numbers 0 … 319; the resulting 0/1 matrices times the cores laid out as 320-row tables select a row of g0, a 16 × 16
  slice of g1 and a column of g2, which it multiplies out in the same nesting. On extended reals a change of float
  format is the identity, 0 · x = 0 and 1 · x = x, so the selection is exact and both programs compute one function
  (`Cert.TT.G`) wherever they select the same rows. They do whenever no index word is negative — both then read row
  min(word, 319) — which is what the precondition's index conjunct says; a word in [-319, -1] is the one place they part
  (the reference counts from the end, the kernel reads row 0). Finiteness of the cores is never used.

  The frames are the generated ones; the kernel's result array is read off its frame run block by block
  (Proof/KernelValue.lean over Proof/Payload.lean and Proof/HostReads.lean), the reference's off its generated run
  (Proof/RefValue.lean), the index conjunct out of the precondition (Proof/PreDecode.lean).
-/
import proofs.«410963_j395136991290_2_alg».proof.Defs
import proofs.«410963_j395136991290_2_alg».proof.Proof.Gen.Kernel
import proofs.«410963_j395136991290_2_alg».proof.Proof.Gen.Kernel.Skeleton
import proofs.«410963_j395136991290_2_alg».proof.Proof.Gen.Kernel.Launch
import proofs.«410963_j395136991290_2_alg».proof.Proof.Gen.Kernel.Points
import proofs.«410963_j395136991290_2_alg».proof.Proof.Gen.Kernel.Frame
import proofs.«410963_j395136991290_2_alg».proof.Proof.Gen.KernelIdeal
import proofs.«410963_j395136991290_2_alg».proof.Proof.Gen.KernelIdeal.Skeleton
import proofs.«410963_j395136991290_2_alg».proof.Proof.Gen.KernelIdeal.Launch
import proofs.«410963_j395136991290_2_alg».proof.Proof.Gen.KernelIdeal.Points
import proofs.«410963_j395136991290_2_alg».proof.Proof.Gen.KernelIdeal.Frame
import proofs.«410963_j395136991290_2_alg».proof.Proof.Gen.ReferenceIdeal
import proofs.«410963_j395136991290_2_alg».proof.Proof.Gen.ReferenceIdeal.Run
import proofs.«410963_j395136991290_2_alg».proof.Proof.Gen.ReferenceIdeal.Read
import proofs.«410963_j395136991290_2_alg».proof.Proof.Gen.Pre_finite_inputs
import proofs.«410963_j395136991290_2_alg».proof.Proof.KernelValue
import proofs.«410963_j395136991290_2_alg».proof.Proof.RefValue
import proofs.«410963_j395136991290_2_alg».proof.Proof.PreDecode
import Idealize.ShloMosaic.Adequacy
import Idealize.ShloMosaic.Init

noncomputable section

namespace Cert.Proof

open Idealize.ShloMosaic Idealize.SL.Sem

/-- The kernel's program at the word level runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with no index word negative, both programs end with the result array at
    the specification of the kernel's arguments. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2]
  exact Cert.ReferenceIdeal.RefValue.ref_is_G _ _ _ _ (Cert.Pre_finite_inputs.Decode.idx_nonneg _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
